-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S4000x64 : Shape := ⟨2, ![4000, 64]⟩
abbrev S4000x1 : Shape := ⟨2, ![4000, 1]⟩
abbrev S4000 : Shape := ⟨1, ![4000]⟩

abbrev nBuf : Space → Nat
  | .hbm => 109
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x1, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x64, .f32⟩
  | .hbm, ⟨107, _⟩ => ⟨S1600000x1, .f32⟩
  | .hbm, ⟨108, _⟩ => ⟨S1600000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x1, .f32⟩
  | .local _ .vmem, ⟨15, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  reduces_S4000x64_S4000 : S4000x64.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S1600000x1_S1600000 : S1600000x1.ShapeCasts S1600000
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S1600000x64.size a
  hwx2_0 : ∀ i : grid2.Coords, EltTy.bits .f32 = 32 ∨ (Rect.block (s := S1600000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S1600000x64.size a
  hwx2_1 : ∀ i : grid2.Coords, EltTy.bits .f32 = 32 ∨ (Rect.block (s := S1600000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S1600000x1.size a
  hwx2_2 : ∀ i : grid2.Coords, EltTy.bits .f32 = 32 ∨ (Rect.block (s := S1600000x1) S4000x1.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v70) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v78) S4000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x1, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x64, .f32⟩
  | .hbm, ⟨107, _⟩ => ⟨S1600000x64, .f32⟩
  | .hbm, ⟨108, _⟩ => ⟨S_, .f32⟩
  | .hbm, ⟨109, _⟩ => ⟨S1600000, .f32⟩
  | .hbm, ⟨110, _⟩ => ⟨S1600000, .f32⟩
  | .hbm, ⟨111, _⟩ => ⟨S1600000, .f32⟩
  | .hbm, ⟨112, _⟩ => ⟨S_, .f32⟩
  | .hbm, ⟨113, _⟩ => ⟨S1600000, .f32⟩
  | .hbm, ⟨114, _⟩ => ⟨S1600000, .f32⟩
  | .hbm, ⟨115, _⟩ => ⟨S_, .f32⟩
  | .hbm, ⟨116, _⟩ => ⟨S1600000, .f32⟩
  | .hbm, ⟨117, _⟩ => ⟨S1600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_c_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S1600000x64_S1600000_d1 : S1600000x64.ReducesTo [1] S1600000
  h_S_ : 0 < S_.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Stages.lean ====
/-
  The host side of the kernel's program, read buffer by buffer.

  Between its three pallas_calls the kernel's @main runs the very operations the reference runs: the two index rows
  of edge_index, the degree normalisation norm = dinv[row] * dinv[col], and for each layer the gather of the
  transformed features at the source nodes, the scaling by norm, the scatter-add at the target nodes and the bias. So
  at every segment boundary each buffer a later segment reads holds the reference's value for the buffer of the same
  name, as a function of the six launch arrays. This module proves that boundary by boundary: a stretch of host
  operations is unfolded to its operations applied to what its inputs held on entry, those are rewritten by the
  earlier boundaries' facts, and what is left is the reference's stage by definition. A buffer no operation of a stretch
  writes, and no window of a region covers, is carried across unchanged. The two dense products enter as hypotheses
  here (they hold over the extended reals only) and are discharged where the regions' values are known.
-/
import proofs.«129514_j75617194213390_1_alg».proof.Proof.Gen.KernelIdeal.Frame
import proofs.«129514_j75617194213390_1_alg».proof.Proof.RefReadP
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- No operation of the named stretch writes the buffer in question: each operation writes one buffer, another one. -/
macro "not_written" : tactic => `(tactic| (
  refine List.forall_iff_forall_mem.mp ?_
  simp only [hostOps0, hostOps0_1, hostOps0_2, hostOps1, hostOps1_1, hostOps2, hostOps3, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Before the first product: the index rows and the normalisation -/

/-- The source-node row of edge_index. -/
theorem W1_v1 (c : Dev nD) : W1 m ρ c (Proc.devRef .tc main_v1) = Cert.ReferenceIdeal.ReadP.val_main_v1 (F := F) (m ((c : Thread nD τ).loc main_arg1)) := by
  show StableHlo.after hostOps0 (W0 m ρ c) (Proc.devRef .tc main_v1) = _
  after_results
  rfl

/-- The target-node row of edge_index. -/
theorem W1_v3 (c : Dev nD) : W1 m ρ c (Proc.devRef .tc main_v3) = Cert.ReferenceIdeal.ReadP.val_main_v3 (F := F) (m ((c : Thread nD τ).loc main_arg1)) := by
  show StableHlo.after hostOps0 (W0 m ρ c) (Proc.devRef .tc main_v3) = _
  after_results
  rfl

/-- Where the in-degree is positive. -/
theorem W1_v9 (c : Dev nD) : W1 m ρ c (Proc.devRef .tc main_v9) = Cert.ReferenceIdeal.ReadP.val_main_v9 (F := F) (m ((c : Thread nD τ).loc main_arg1)) := by
  show StableHlo.after hostOps0 (W0 m ρ c) (Proc.devRef .tc main_v9) = _
  after_results
  rfl

/-- The reciprocal square root of the in-degree, floored at 1e-30. -/
theorem W1_v12 (c : Dev nD) : W1 m ρ c (Proc.devRef .tc main_v12) = Cert.ReferenceIdeal.ReadP.val_main_v12 (F := F) (m ((c : Thread nD τ).loc main_arg1)) := by
  show StableHlo.after hostOps0 (W0 m ρ c) (Proc.devRef .tc main_v12) = _
  after_results
  rfl

/-- The zero that stands where the in-degree is zero. -/
theorem W1_cst_3 (c : Dev nD) : W1 m ρ c (Proc.devRef .tc main_cst_3) = Cert.ReferenceIdeal.ReadP.val_main_cst_3 (F := F) := by
  show StableHlo.after hostOps0 (W0 m ρ c) (Proc.devRef .tc main_cst_3) = _
  after_results
  rfl

theorem W2_v1_c (c : Dev nD) : W2 m ρ c (Proc.devRef .tc main_v1) = W1 m ρ c (Proc.devRef .tc main_v1) :=
  StableHlo.after_of_forall_not_mem (b := (Proc.devRef .tc main_v1)) hostOps0_1 _ (by not_written)

theorem W2_v3_c (c : Dev nD) : W2 m ρ c (Proc.devRef .tc main_v3) = W1 m ρ c (Proc.devRef .tc main_v3) :=
  StableHlo.after_of_forall_not_mem (b := (Proc.devRef .tc main_v3)) hostOps0_1 _ (by not_written)

set_option maxHeartbeats 4000000 in
/-- dinv: the reciprocal square root of the in-degree where it is positive, zero elsewhere. -/
theorem W2_v13 (c : Dev nD) :
    W2 m ρ c (Proc.devRef .tc main_v13) = Cert.ReferenceIdeal.ReadP.val_main_v13 (F := F) (m ((c : Thread nD τ).loc main_arg1)) := by
  have e0 := W1_v9 m ρ c
  have e1 := W1_v12 m ρ c
  have e2 := W1_cst_3 m ρ c
  show StableHlo.after hostOps0_1 (W1 m ρ c) (Proc.devRef .tc main_v13) = _
  generalize W1 m ρ c = W at e0 e1 e2 ⊢
  after_results_simp
  rw [e0, e1, e2]
  rfl

theorem W2_v1 (c : Dev nD) : W2 m ρ c (Proc.devRef .tc main_v1) = Cert.ReferenceIdeal.ReadP.val_main_v1 (F := F) (m ((c : Thread nD τ).loc main_arg1)) := (W2_v1_c m ρ c).trans (W1_v1 m ρ c)
theorem W2_v3 (c : Dev nD) : W2 m ρ c (Proc.devRef .tc main_v3) = Cert.ReferenceIdeal.ReadP.val_main_v3 (F := F) (m ((c : Thread nD τ).loc main_arg1)) := (W2_v3_c m ρ c).trans (W1_v3 m ρ c)
set_option maxHeartbeats 4000000 in
/-- norm: dinv at the source node times dinv at the target node, edge by edge. -/
theorem W3_v28 (c : Dev nD) :
    W3 m ρ c (Proc.devRef .tc main_v28) = Cert.ReferenceIdeal.ReadP.val_main_v28 (F := F) (m ((c : Thread nD τ).loc main_arg1)) := by
  have e0 := W2_v1 m ρ c
  have e1 := W2_v3 m ρ c
  have e2 := W2_v13 m ρ c
  show StableHlo.after hostOps0_2 (W2 m ρ c) (Proc.devRef .tc main_v28) = _
  generalize W2 m ρ c = W at e0 e1 e2 ⊢
  after_results_simp
  rw [e0, e1, e2]
  rfl

theorem W3_v1_c (c : Dev nD) : W3 m ρ c (Proc.devRef .tc main_v1) = W2 m ρ c (Proc.devRef .tc main_v1) :=
  StableHlo.after_of_forall_not_mem (b := (Proc.devRef .tc main_v1)) hostOps0_2 _ (by not_written)

theorem W3_v3_c (c : Dev nD) : W3 m ρ c (Proc.devRef .tc main_v3) = W2 m ρ c (Proc.devRef .tc main_v3) :=
  StableHlo.after_of_forall_not_mem (b := (Proc.devRef .tc main_v3)) hostOps0_2 _ (by not_written)

theorem W3_v1 (c : Dev nD) : W3 m ρ c (Proc.devRef .tc main_v1) = Cert.ReferenceIdeal.ReadP.val_main_v1 (F := F) (m ((c : Thread nD τ).loc main_arg1)) := (W3_v1_c m ρ c).trans (W2_v1 m ρ c)
theorem W3_v3 (c : Dev nD) : W3 m ρ c (Proc.devRef .tc main_v3) = Cert.ReferenceIdeal.ReadP.val_main_v3 (F := F) (m ((c : Thread nD τ).loc main_arg1)) := (W3_v3_c m ρ c).trans (W2_v3 m ρ c)

/-! ## The argument arrays where a later segment reads them -/

/-- No segment up to this boundary writes this argument array. -/
theorem W3_arg0 (c : Dev nD) : W3 m ρ c (Proc.devRef .tc main_arg0) = m ((c : Thread nD τ).loc main_arg0) :=
  (((StableHlo.after_of_forall_not_mem (b := (Proc.devRef .tc main_arg0)) hostOps0_2 (W2 m ρ c) (by not_written) : W3 m ρ c (Proc.devRef .tc main_arg0) = W2 m ρ c (Proc.devRef .tc main_arg0)).trans (StableHlo.after_of_forall_not_mem (b := (Proc.devRef .tc main_arg0)) hostOps0_1 (W1 m ρ c) (by not_written) : W2 m ρ c (Proc.devRef .tc main_arg0) = W1 m ρ c (Proc.devRef .tc main_arg0))).trans (StableHlo.after_of_forall_not_mem (b := (Proc.devRef .tc main_arg0)) hostOps0 (W0 m ρ c) (by not_written) : W1 m ρ c (Proc.devRef .tc main_arg0) = W0 m ρ c (Proc.devRef .tc main_arg0))).trans rfl

/-- No segment up to this boundary writes this argument array. -/
theorem W3_arg2 (c : Dev nD) : W3 m ρ c (Proc.devRef .tc main_arg2) = m ((c : Thread nD τ).loc main_arg2) :=
  (((StableHlo.after_of_forall_not_mem (b := (Proc.devRef .tc main_arg2)) hostOps0_2 (W2 m ρ c) (by not_written) : W3 m ρ c (Proc.devRef .tc main_arg2) = W2 m ρ c (Proc.devRef .tc main_arg2)).trans (StableHlo.after_of_forall_not_mem (b := (Proc.devRef .tc main_arg2)) hostOps0_1 (W1 m ρ c) (by not_written) : W2 m ρ c (Proc.devRef .tc main_arg2) = W1 m ρ c (Proc.devRef .tc main_arg2))).trans (StableHlo.after_of_forall_not_mem (b := (Proc.devRef .tc main_arg2)) hostOps0 (W0 m ρ c) (by not_written) : W1 m ρ c (Proc.devRef .tc main_arg2) = W0 m ρ c (Proc.devRef .tc main_arg2))).trans rfl

/-- No segment up to this boundary writes this argument array. -/
theorem W4_arg3 (c : Dev nD) : W4 m ρ c (Proc.devRef .tc main_arg3) = m ((c : Thread nD τ).loc main_arg3) :=
  ((((W4_of_ne m ρ c main_arg3 (by decide) : W4 m ρ c (Proc.devRef .tc main_arg3) = W3 m ρ c (Proc.devRef .tc main_arg3)).trans (StableHlo.after_of_forall_not_mem (b := (Proc.devRef .tc main_arg3)) hostOps0_2 (W2 m ρ c) (by not_written) : W3 m ρ c (Proc.devRef .tc main_arg3) = W2 m ρ c (Proc.devRef .tc main_arg3))).trans (StableHlo.after_of_forall_not_mem (b := (Proc.devRef .tc main_arg3)) hostOps0_1 (W1 m ρ c) (by not_written) : W2 m ρ c (Proc.devRef .tc main_arg3) = W1 m ρ c (Proc.devRef .tc main_arg3))).trans (StableHlo.after_of_forall_not_mem (b := (Proc.devRef .tc main_arg3)) hostOps0 (W0 m ρ c) (by not_written) : W1 m ρ c (Proc.devRef .tc main_arg3) = W0 m ρ c (Proc.devRef .tc main_arg3))).trans rfl

/-- No segment up to this boundary writes this argument array. -/
theorem W6_arg4 (c : Dev nD) : W6 m ρ c (Proc.devRef .tc main_arg4) = m ((c : Thread nD τ).loc main_arg4) :=
  ((((((StableHlo.after_of_forall_not_mem (b := (Proc.devRef .tc main_arg4)) hostOps1_1 (W5 m ρ c) (by not_written) : W6 m ρ c (Proc.devRef .tc main_arg4) = W5 m ρ c (Proc.devRef .tc main_arg4)).trans (StableHlo.after_of_forall_not_mem (b := (Proc.devRef .tc main_arg4)) hostOps1 (W4 m ρ c) (by not_written) : W5 m ρ c (Proc.devRef .tc main_arg4) = W4 m ρ c (Proc.devRef .tc main_arg4))).trans (W4_of_ne m ρ c main_arg4 (by decide) : W4 m ρ c (Proc.devRef .tc main_arg4) = W3 m ρ c (Proc.devRef .tc main_arg4))).trans (StableHlo.after_of_forall_not_mem (b := (Proc.devRef .tc main_arg4)) hostOps0_2 (W2 m ρ c) (by not_written) : W3 m ρ c (Proc.devRef .tc main_arg4) = W2 m ρ c (Proc.devRef .tc main_arg4))).trans (StableHlo.after_of_forall_not_mem (b := (Proc.devRef .tc main_arg4)) hostOps0_1 (W1 m ρ c) (by not_written) : W2 m ρ c (Proc.devRef .tc main_arg4) = W1 m ρ c (Proc.devRef .tc main_arg4))).trans (StableHlo.after_of_forall_not_mem (b := (Proc.devRef .tc main_arg4)) hostOps0 (W0 m ρ c) (by not_written) : W1 m ρ c (Proc.devRef .tc main_arg4) = W0 m ρ c (Proc.devRef .tc main_arg4))).trans rfl

/-- No segment up to this boundary writes this argument array. -/
theorem W7_arg5 (c : Dev nD) : W7 m ρ c (Proc.devRef .tc main_arg5) = m ((c : Thread nD τ).loc main_arg5) :=
  (((((((W7_of_ne m ρ c main_arg5 (by decide) : W7 m ρ c (Proc.devRef .tc main_arg5) = W6 m ρ c (Proc.devRef .tc main_arg5)).trans (StableHlo.after_of_forall_not_mem (b := (Proc.devRef .tc main_arg5)) hostOps1_1 (W5 m ρ c) (by not_written) : W6 m ρ c (Proc.devRef .tc main_arg5) = W5 m ρ c (Proc.devRef .tc main_arg5))).trans (StableHlo.after_of_forall_not_mem (b := (Proc.devRef .tc main_arg5)) hostOps1 (W4 m ρ c) (by not_written) : W5 m ρ c (Proc.devRef .tc main_arg5) = W4 m ρ c (Proc.devRef .tc main_arg5))).trans (W4_of_ne m ρ c main_arg5 (by decide) : W4 m ρ c (Proc.devRef .tc main_arg5) = W3 m ρ c (Proc.devRef .tc main_arg5))).trans (StableHlo.after_of_forall_not_mem (b := (Proc.devRef .tc main_arg5)) hostOps0_2 (W2 m ρ c) (by not_written) : W3 m ρ c (Proc.devRef .tc main_arg5) = W2 m ρ c (Proc.devRef .tc main_arg5))).trans (StableHlo.after_of_forall_not_mem (b := (Proc.devRef .tc main_arg5)) hostOps0_1 (W1 m ρ c) (by not_written) : W2 m ρ c (Proc.devRef .tc main_arg5) = W1 m ρ c (Proc.devRef .tc main_arg5))).trans (StableHlo.after_of_forall_not_mem (b := (Proc.devRef .tc main_arg5)) hostOps0 (W0 m ρ c) (by not_written) : W1 m ρ c (Proc.devRef .tc main_arg5) = W0 m ρ c (Proc.devRef .tc main_arg5))).trans rfl

/-! ## After the first product: the first layer's aggregation and the rectifier -/

theorem W4_v1 (c : Dev nD) : W4 m ρ c (Proc.devRef .tc main_v1) = Cert.ReferenceIdeal.ReadP.val_main_v1 (F := F) (m ((c : Thread nD τ).loc main_arg1)) := (W4_of_ne m ρ c main_v1 (by decide) : W4 m ρ c (Proc.devRef .tc main_v1) = W3 m ρ c (Proc.devRef .tc main_v1)).trans (W3_v1 m ρ c)
theorem W4_v3 (c : Dev nD) : W4 m ρ c (Proc.devRef .tc main_v3) = Cert.ReferenceIdeal.ReadP.val_main_v3 (F := F) (m ((c : Thread nD τ).loc main_arg1)) := (W4_of_ne m ρ c main_v3 (by decide) : W4 m ρ c (Proc.devRef .tc main_v3) = W3 m ρ c (Proc.devRef .tc main_v3)).trans (W3_v3 m ρ c)
theorem W4_v28 (c : Dev nD) : W4 m ρ c (Proc.devRef .tc main_v28) = Cert.ReferenceIdeal.ReadP.val_main_v28 (F := F) (m ((c : Thread nD τ).loc main_arg1)) := (W4_of_ne m ρ c main_v28 (by decide) : W4 m ρ c (Proc.devRef .tc main_v28) = W3 m ρ c (Proc.devRef .tc main_v28)).trans (W3_v28 m ρ c)

set_option maxHeartbeats 4000000 in
/-- The first layer before the rectifier: the product's rows gathered at the source nodes, scaled by norm, summed at the target nodes, plus the bias. -/
theorem W5_v45 (c : Dev nD) (h29 : W4 m ρ c (Proc.devRef .tc main_v29) = Cert.ReferenceIdeal.ReadP.val_main_v29 (F := F) (m ((c : Thread nD τ).loc main_arg0)) (m ((c : Thread nD τ).loc main_arg2))) :
    W5 m ρ c (Proc.devRef .tc main_v45) = Cert.ReferenceIdeal.ReadP.val_main_v45 (F := F) (m ((c : Thread nD τ).loc main_arg0)) (m ((c : Thread nD τ).loc main_arg1)) (m ((c : Thread nD τ).loc main_arg2)) (m ((c : Thread nD τ).loc main_arg3)) := by
  have e0 := W4_v1 m ρ c
  have e1 := W4_v3 m ρ c
  have e2 := W4_v28 m ρ c
  have e3 := h29
  have e4 := W4_arg3 m ρ c
  show StableHlo.after hostOps1 (W4 m ρ c) (Proc.devRef .tc main_v45) = _
  generalize W4 m ρ c = W at e0 e1 e2 e3 e4 ⊢
  after_results_simp
  rw [e0, e1, e2, e3, e4]
  rfl

set_option maxHeartbeats 4000000 in
/-- The hidden features: the rectifier of the first layer. -/
theorem W6_v46 (c : Dev nD) (h29 : W4 m ρ c (Proc.devRef .tc main_v29) = Cert.ReferenceIdeal.ReadP.val_main_v29 (F := F) (m ((c : Thread nD τ).loc main_arg0)) (m ((c : Thread nD τ).loc main_arg2))) :
    W6 m ρ c (Proc.devRef .tc main_v46) = Cert.ReferenceIdeal.ReadP.val_main_v46 (F := F) (m ((c : Thread nD τ).loc main_arg0)) (m ((c : Thread nD τ).loc main_arg1)) (m ((c : Thread nD τ).loc main_arg2)) (m ((c : Thread nD τ).loc main_arg3)) := by
  have e0 := W5_v45 m ρ c h29
  show StableHlo.after hostOps1_1 (W5 m ρ c) (Proc.devRef .tc main_v46) = _
  generalize W5 m ρ c = W at e0 ⊢
  after_results_simp
  rw [e0]
  rfl

/-! ## After the second product: the second layer's aggregation and the two gathers of the score -/

theorem W7_v1 (c : Dev nD) : W7 m ρ c (Proc.devRef .tc main_v1) = Cert.ReferenceIdeal.ReadP.val_main_v1 (F := F) (m ((c : Thread nD τ).loc main_arg1)) := (((W7_of_ne m ρ c main_v1 (by decide) : W7 m ρ c (Proc.devRef .tc main_v1) = W6 m ρ c (Proc.devRef .tc main_v1)).trans (StableHlo.after_of_forall_not_mem (b := (Proc.devRef .tc main_v1)) hostOps1_1 (W5 m ρ c) (by not_written) : W6 m ρ c (Proc.devRef .tc main_v1) = W5 m ρ c (Proc.devRef .tc main_v1))).trans (StableHlo.after_of_forall_not_mem (b := (Proc.devRef .tc main_v1)) hostOps1 (W4 m ρ c) (by not_written) : W5 m ρ c (Proc.devRef .tc main_v1) = W4 m ρ c (Proc.devRef .tc main_v1))).trans (W4_v1 m ρ c)
theorem W7_v3 (c : Dev nD) : W7 m ρ c (Proc.devRef .tc main_v3) = Cert.ReferenceIdeal.ReadP.val_main_v3 (F := F) (m ((c : Thread nD τ).loc main_arg1)) := (((W7_of_ne m ρ c main_v3 (by decide) : W7 m ρ c (Proc.devRef .tc main_v3) = W6 m ρ c (Proc.devRef .tc main_v3)).trans (StableHlo.after_of_forall_not_mem (b := (Proc.devRef .tc main_v3)) hostOps1_1 (W5 m ρ c) (by not_written) : W6 m ρ c (Proc.devRef .tc main_v3) = W5 m ρ c (Proc.devRef .tc main_v3))).trans (StableHlo.after_of_forall_not_mem (b := (Proc.devRef .tc main_v3)) hostOps1 (W4 m ρ c) (by not_written) : W5 m ρ c (Proc.devRef .tc main_v3) = W4 m ρ c (Proc.devRef .tc main_v3))).trans (W4_v3 m ρ c)
theorem W7_v28 (c : Dev nD) : W7 m ρ c (Proc.devRef .tc main_v28) = Cert.ReferenceIdeal.ReadP.val_main_v28 (F := F) (m ((c : Thread nD τ).loc main_arg1)) := (((W7_of_ne m ρ c main_v28 (by decide) : W7 m ρ c (Proc.devRef .tc main_v28) = W6 m ρ c (Proc.devRef .tc main_v28)).trans (StableHlo.after_of_forall_not_mem (b := (Proc.devRef .tc main_v28)) hostOps1_1 (W5 m ρ c) (by not_written) : W6 m ρ c (Proc.devRef .tc main_v28) = W5 m ρ c (Proc.devRef .tc main_v28))).trans (StableHlo.after_of_forall_not_mem (b := (Proc.devRef .tc main_v28)) hostOps1 (W4 m ρ c) (by not_written) : W5 m ρ c (Proc.devRef .tc main_v28) = W4 m ρ c (Proc.devRef .tc main_v28))).trans (W4_v28 m ρ c)

set_option maxHeartbeats 4000000 in
/-- The output features gathered at each edge's source node. -/
theorem W8_v70 (c : Dev nD) (h47 : W7 m ρ c (Proc.devRef .tc main_v47) = Cert.ReferenceIdeal.ReadP.val_main_v47 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W8 m ρ c (Proc.devRef .tc main_v70) = Cert.ReferenceIdeal.ReadP.val_main_v70 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e0 := W7_v1 m ρ c
  have e1 := W7_v3 m ρ c
  have e2 := W7_v28 m ρ c
  have e3 := h47
  have e4 := W7_arg5 m ρ c
  show StableHlo.after hostOps2 (W7 m ρ c) (Proc.devRef .tc main_v70) = _
  generalize W7 m ρ c = W at e0 e1 e2 e3 e4 ⊢
  after_results_simp
  rw [e0, e1, e2, e3, e4]
  rfl

set_option maxHeartbeats 4000000 in
/-- The output features gathered at each edge's target node. -/
theorem W8_v77 (c : Dev nD) (h47 : W7 m ρ c (Proc.devRef .tc main_v47) = Cert.ReferenceIdeal.ReadP.val_main_v47 (F := F) (m ((c : Thread nD τ).loc main_arg0)) (m ((c : Thread nD τ).loc main_arg1)) (m ((c : Thread nD τ).loc main_arg2)) (m ((c : Thread nD τ).loc main_arg3)) (m ((c : Thread nD τ).loc main_arg4))) :
    W8 m ρ c (Proc.devRef .tc main_v77) = Cert.ReferenceIdeal.ReadP.val_main_v77 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e0 := W7_v1 m ρ c
  have e1 := W7_v3 m ρ c
  have e2 := W7_v28 m ρ c
  have e3 := h47
  have e4 := W7_arg5 m ρ c
  show StableHlo.after hostOps2 (W7 m ρ c) (Proc.devRef .tc main_v77) = _
  generalize W7 m ρ c = W at e0 e1 e2 e3 e4 ⊢
  after_results_simp
  rw [e0, e1, e2, e3, e4]
  rfl

end Cert.KernelIdeal.Stages

end
-- ==== Proof.Region0.lean ====
/-
  The first dense layer's product, block by block. The pallas_call tiles the 100000 rows of x into 20 blocks of 5000
  rows, keeps the whole 128 x 128 weight resident, and at each grid point stores (block of x) times W into the same
  block of rows of the result. Over the extended reals the change of float format before the product is the identity
  and a product into a zero accumulator is the plain sum over the contracted axis, so row r of the result is
  the sum over k of x[r, k] * W[k, j] whatever block r lies in: the array the region leaves is the one whole product.
-/
import proofs.«129514_j75617194213390_1_alg».proof.Proof.Gen.KernelIdeal.Frame
import proofs.«129514_j75617194213390_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem
open Idealize.ShloMosaic.Pipeline (Dat)
open Cert.KernelIdeal Cert.KernelIdeal.Gen

/- The TensorCore's buffer contents when the region is entered: any. -/
variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by
  match a with
  | ⟨0, _⟩ => rfl
  | ⟨1, _⟩ => rfl

/-! ## The block product read at an index -/

/-- The left operand's row coordinate is the output's row. -/
theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted index. -/
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted index. -/
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at row p and column j of the block: the sum over k of x[p, k] * w[k, j]. Over the
    extended reals the change of format is the identity and the product into the zero accumulator is the plain sum. -/
theorem pay_apply (x0 : Vec Ideal S5000x128 .f32) (x1 : Vec Ideal S128x128 .f32) (p : Fin 5000) (j : Fin 128) :
    k0_pay1 (F := Ideal) x0 x1 (ValueIdx.ix2 p j) = ∑ k : Fin 128, x0 (ValueIdx.ix2 p k) * x1 (ValueIdx.ix2 k j) := by
  unfold k0_pay1
  refine (Ideal.matmul_constant_zero_apply dot_S5000x128_S128x128_S5000x128_1_0_0_1_n_n none _ _ (ValueIdx.ix2 p j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p j) ((ValueIdx.contrEquiv1 dot_S5000x128_S128x128_S5000x128_1_0_0_1_n_n 128 rfl rfl).symm k) = ValueIdx.ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ValueIdx.ix2 p j) ((ValueIdx.contrEquiv1 dot_S5000x128_S128x128_S5000x128_1_0_0_1_n_n 128 rfl rfl).symm k) = ValueIdx.ix2 k j := funext fun a => Fin.ext (by
    match a with
    | ⟨0, _⟩ => exact (rhs_blk_0 _ _).trans hk
    | ⟨1, _⟩ => exact rhs_blk_1 _ _)
  rw [el, er]
  rfl

/-! ## The blocks -/

/-- The index maps, decided over the grid: the row block of x and of the result is the point's own, every
    other block coordinate is zero. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The whole product of the two arrays the region's input windows read. -/
abbrev G (c : Dev nD) : (⟨S100000x128, .f32⟩ : BufTy).Contents (Elt Ideal) :=
  Cert.ReferenceIdeal.ReadP.val_main_v29 (F := Ideal) (V c main_arg0) (V c main_arg2)

/-- WHAT POINT t WRITES BACK is block t of the whole product. -/
theorem flushed_eq (c : Dev nD) (t : Fin cfg0.N) :
    (dat0 (F := Ideal) V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ValueIdx.ix2 p q := ⟨j 0, j 1, ValueIdx.eq_ix2 j⟩
  show k0_pay1 (F := Ideal) (iblk0 V c 0 t) (iblk0 V c 1 t) (ValueIdx.ix2 p q)
    = G V c (((cfg0.win 2).blk t).view.emb (ValueIdx.ix2 p q))
  rw [pay_apply]
  refine (Finset.sum_congr rfl fun k _ => ?_).trans (Cert.ReferenceIdeal.ReadP.val_main_v29_apply _ _ _).symm
  have h0 : iblk0 V c 0 t (ValueIdx.ix2 p k)
      = V c main_arg0 (Cert.ReferenceIdeal.ReadP.lidx_main_v29 (((cfg0.win 2).blk t).view.emb (ValueIdx.ix2 p q)) k) := by
    show V c main_arg0 (((cfg0.win 0).blk t).view.emb (ValueIdx.ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : iblk0 V c 1 t (ValueIdx.ix2 k q)
      = V c main_arg2 (Cert.ReferenceIdeal.ReadP.ridx_main_v29 (((cfg0.win 2).blk t).view.emb (ValueIdx.ix2 p q)) k) := by
    show V c main_arg2 (((cfg0.win 1).blk t).view.emb (ValueIdx.ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-! ## The cover -/

/-- Every row block of the result is some point's. -/
theorem idx_onto : ∀ q0 : Fin 20, ∃ t : Fin cfg0.N, win0_2.index t (0 : Fin 2) = q0.val ∧ win0_2.index t (1 : Fin 2) = 0 :=
  (by decide +kernel : ∀ q0 : Fin 20, ∃ t : Fin grid0.N, win0_2.index t (0 : Fin 2) = q0.val ∧ win0_2.index t (1 : Fin 2) = 0)

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row r of the result lies in the block of point r / 5000: the blocks cover the array. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := idx_onto ⟨(i 0).val / 5000, by omega⟩
  have q0' : win0_2.index t (0 : Fin 2) = (i 0).val / 5000 := q0
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0, its output array holds the whole product of the arrays its two input windows read. -/
theorem value (c : Dev nD) :
    (dat0 (F := Ideal) V c).arrAt 2 cfg0.N
      = Cert.ReferenceIdeal.ReadP.val_main_v29 (F := Ideal) (V c main_arg0) (V c main_arg2) :=
  (dat0 (F := Ideal) V c).arrAt_eq_of_cover 2 (G V c) (fun t _ => flushed_eq V c t) cover

end Cert.KernelIdeal.Region0

end
-- ==== Proof.Region1.lean ====
/-
  The second dense layer's product, block by block: 20 blocks of 5000 rows of the hidden features times the whole
  128 x 64 weight, each block's product stored into the same rows of the result. Over the extended reals row r of the
  result is the sum over k of h[r, k] * W2[k, j]: the array the region leaves is the one whole product.
-/
import proofs.«129514_j75617194213390_1_alg».proof.Proof.Gen.KernelIdeal.Frame
import proofs.«129514_j75617194213390_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem
open Idealize.ShloMosaic.Pipeline (Dat)
open Cert.KernelIdeal Cert.KernelIdeal.Gen

/- The TensorCore's buffer contents when the region is entered: any. -/
variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by
  match a with
  | ⟨0, _⟩ => rfl
  | ⟨1, _⟩ => rfl

/-! ## The block product read at an index -/

/-- The left operand's row coordinate is the output's row. -/
theorem lhs_blk_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contracted index. -/
theorem lhs_blk_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the contracted index. -/
theorem rhs_blk_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column coordinate is the output's column. -/
theorem rhs_blk_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores, at row p and column j of the block: the sum over k of h[p, k] * w[k, j]. A cast of the block
    to its own shape is the identity, over the extended reals so is the change of format, and the product into the
    zero accumulator is the plain sum. -/
theorem pay_apply (x0 : Vec Ideal S5000x128 .f32) (x1 : Vec Ideal S128x64 .f32) (p : Fin 5000) (j : Fin 64) :
    k1_pay1 (F := Ideal) x0 x1 (ValueIdx.ix2 p j) = ∑ k : Fin 128, x0 (ValueIdx.ix2 p k) * x1 (ValueIdx.ix2 k j) := by
  unfold k1_pay1
  rw [shapeCast_self]
  refine (Ideal.matmul_constant_zero_apply dot_S5000x128_S128x64_S5000x64_1_0_0_1_n_n none _ _ (ValueIdx.ix2 p j)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ValueIdx.ix2 p j) ((ValueIdx.contrEquiv1 dot_S5000x128_S128x64_S5000x64_1_0_0_1_n_n 128 rfl rfl).symm k) = ValueIdx.ix2 p k := funext fun a => Fin.ext (by
    match a with
    | ⟨0, _⟩ => exact lhs_blk_0 _ _
    | ⟨1, _⟩ => exact (lhs_blk_1 _ _).trans hk)
  have er : dot_S5000x128_S128x64_S5000x64_1_0_0_1_n_n.rhsIdx (ValueIdx.ix2 p j) ((ValueIdx.contrEquiv1 dot_S5000x128_S128x64_S5000x64_1_0_0_1_n_n 128 rfl rfl).symm k) = ValueIdx.ix2 k j := funext fun a => Fin.ext (by
    match a with
    | ⟨0, _⟩ => exact (rhs_blk_0 _ _).trans hk
    | ⟨1, _⟩ => exact rhs_blk_1 _ _)
  rw [el, er]
  rfl

/-! ## The whole product read at an index -/

/-- The whole product of ANY left array with the weight, at row r and column j: the sum over k of a[r, k] * w[k, j]. -/
theorem whole_apply (a : (⟨S100000x128, .f32⟩ : BufTy).Contents (Elt Ideal)) (w : (⟨S128x64, .f32⟩ : BufTy).Contents (Elt Ideal)) (i : S100000x64.Idx) :
    Host.dotGeneral (F := Ideal) (φ₁ := .f32) (φ₂ := .f32) Cert.ReferenceIdeal.dot_S100000x128_S128x64_S100000x64_1_0_0_1_n_n none a w i
      = ∑ k : Fin 128, a (Cert.ReferenceIdeal.ReadP.lidx_main_v47 i k) * w (Cert.ReferenceIdeal.ReadP.ridx_main_v47 i k) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : (Cert.ReferenceIdeal.dot_S100000x128_S128x64_S100000x64_1_0_0_1_n_n).lhsIdx i ((ValueIdx.contrEquiv1 Cert.ReferenceIdeal.dot_S100000x128_S128x64_S100000x64_1_0_0_1_n_n 128 rfl rfl).symm k) = Cert.ReferenceIdeal.ReadP.lidx_main_v47 i k := funext fun b => Fin.ext (by
    match b with
    | ⟨0, _⟩ => exact Cert.ReferenceIdeal.ReadP.lhs_main_v47_0 _ _
    | ⟨1, _⟩ => exact (Cert.ReferenceIdeal.ReadP.lhs_main_v47_1 _ _).trans hk)
  have er : (Cert.ReferenceIdeal.dot_S100000x128_S128x64_S100000x64_1_0_0_1_n_n).rhsIdx i ((ValueIdx.contrEquiv1 Cert.ReferenceIdeal.dot_S100000x128_S128x64_S100000x64_1_0_0_1_n_n 128 rfl rfl).symm k) = Cert.ReferenceIdeal.ReadP.ridx_main_v47 i k := funext fun b => Fin.ext (by
    match b with
    | ⟨0, _⟩ => exact (Cert.ReferenceIdeal.ReadP.rhs_main_v47_0 _ _).trans hk
    | ⟨1, _⟩ => exact Cert.ReferenceIdeal.ReadP.rhs_main_v47_1 _ _)
  rw [el, er]

/-! ## The blocks -/

/-- The index maps, decided over the grid: the row block of h and of the result is the point's own, every other block
    coordinate is zero. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The whole product of the two arrays the region's input windows read. -/
abbrev G (c : Dev nD) : (⟨S100000x64, .f32⟩ : BufTy).Contents (Elt Ideal) :=
  Host.dotGeneral (F := Ideal) (φ₁ := .f32) (φ₂ := .f32) Cert.ReferenceIdeal.dot_S100000x128_S128x64_S100000x64_1_0_0_1_n_n none (V c main_v46) (V c main_arg4)

/-- WHAT POINT t WRITES BACK is block t of the whole product. -/
theorem flushed_eq (c : Dev nD) (t : Fin cfg1.N) :
    (dat1 (F := Ideal) V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ValueIdx.ix2 p q := ⟨j 0, j 1, ValueIdx.eq_ix2 j⟩
  show k1_pay1 (F := Ideal) (iblk1 V c 0 t) (iblk1 V c 1 t) (ValueIdx.ix2 p q)
    = G V c (((cfg1.win 2).blk t).view.emb (ValueIdx.ix2 p q))
  rw [pay_apply]
  refine (Finset.sum_congr rfl fun k _ => ?_).trans (whole_apply _ _ _).symm
  have h0 : iblk1 V c 0 t (ValueIdx.ix2 p k)
      = V c main_v46 (Cert.ReferenceIdeal.ReadP.lidx_main_v47 (((cfg1.win 2).blk t).view.emb (ValueIdx.ix2 p q)) k) := by
    show V c main_v46 (((cfg1.win 0).blk t).view.emb (ValueIdx.ix2 p k)) = _
    refine congrArg (V c main_v46) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  have h1 : iblk1 V c 1 t (ValueIdx.ix2 k q)
      = V c main_arg4 (Cert.ReferenceIdeal.ReadP.ridx_main_v47 (((cfg1.win 2).blk t).view.emb (ValueIdx.ix2 p q)) k) := by
    show V c main_arg4 (((cfg1.win 1).blk t).view.emb (ValueIdx.ix2 k q)) = _
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 64 + 1 * q.val = win1_2.index t (1 : Fin 2) * 64 + 1 * q.val; omega
  rw [h0, h1]

/-! ## The cover -/

/-- Every row block of the result is some point's. -/
theorem idx_onto : ∀ q0 : Fin 20, ∃ t : Fin cfg1.N, win1_2.index t (0 : Fin 2) = q0.val ∧ win1_2.index t (1 : Fin 2) = 0 :=
  (by decide +kernel : ∀ q0 : Fin 20, ∃ t : Fin grid1.N, win1_2.index t (0 : Fin 2) = q0.val ∧ win1_2.index t (1 : Fin 2) = 0)

/-- An index of the array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Row r of the result lies in the block of point r / 5000: the blocks cover the array. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, q0, q1⟩ := idx_onto ⟨(i 0).val / 5000, by omega⟩
  have q0' : win1_2.index t (0 : Fin 2) = (i 0).val / 5000 := q0
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After region 1, its output array holds the whole product of the arrays its two input windows read. -/
theorem value (c : Dev nD) :
    (dat1 (F := Ideal) V c).arrAt 2 cfg1.N
      = Host.dotGeneral (F := Ideal) (φ₁ := .f32) (φ₂ := .f32) Cert.ReferenceIdeal.dot_S100000x128_S128x64_S100000x64_1_0_0_1_n_n none (V c main_v46) (V c main_arg4) :=
  (dat1 (F := Ideal) V c).arrAt_eq_of_cover 2 (G V c) (fun t _ => flushed_eq V c t) cover

end Cert.KernelIdeal.Region1

end
-- ==== Proof.Region2.lean ====
/-
  The edge score, block by block: 400 blocks of 4000 edges; at each grid point the body multiplies the two gathered
  feature blocks entry by entry, sums each row's 64 products, and applies the logistic function. Edge e of the result
  depends only on row e of the two inputs, so the array the region leaves holds, at edge e, the logistic function of
  the sum over k of hr[e, k] * hc[e, k].
-/
import proofs.«129514_j75617194213390_1_alg».proof.Proof.Gen.KernelIdeal.Frame
import proofs.«129514_j75617194213390_1_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.SL.Sem
open Idealize.ShloMosaic.Pipeline (Dat)
open Cert.KernelIdeal Cert.KernelIdeal.Gen

/- The TensorCore's buffer contents when the region is entered: any. -/
variable (V : (c : Dev nD) → (b : Ref sig .tc) → Buf (Elt Ideal) ((c : Thread nD τ).loc b))

/-- The two gathered feature arrays (source-node rows, target-node rows) as the region finds them. -/
abbrev hrow (c : Dev nD) : FVec Ideal S1600000x64 .f32 := V c main_v70
abbrev hcol (c : Dev nD) : FVec Ideal S1600000x64 .f32 := V c main_v77

/-- The column cast: a length-4000 vector viewed as a 4000-by-1 column reads, at (p, 0), the vector at p
    (both have row-major position p). -/
theorem col_apply {α : Type} (x : S4000.Idx → α) (p : Fin 4000) :
    shapeCast S4000x1 x shapeCasts_S4000_S4000x1 (ValueIdx.ix2 p (0 : Fin 1)) = x (ValueIdx.ix1 p) :=
  shapeCast_apply x shapeCasts_S4000_S4000x1 _ _ (by
    rw [Shape.rowMajor_val_two, Shape.rowMajor_val_one]
    show p.val = p.val * 1 + 0
    omega)

/-- The sum along the second axis of a 4000-by-64 array of extended reals is, at row p, the sum of row p's 64 entries. -/
theorem rowSum_apply (src : FVec Ideal S4000x64 .f32) (p : Fin 4000) :
    multiReduction (F := Ideal) .add [1] S4000 src 0x00000000#32 reduces_S4000x64_S4000 (.inl rfl) rfl (ValueIdx.ix1 p)
      = ∑ k : Fin 64, src (ValueIdx.ix2 p k) := by
  refine (Ideal.multiReduction_add_single src _ reduces_S4000x64_S4000 (.inl rfl) rfl (ValueIdx.ix1 p)).trans ?_
  refine Finset.sum_congr rfl fun k _ => congrArg src ?_
  funext a
  apply Fin.ext
  match a with
  | ⟨0, _⟩ => rfl
  | ⟨1, _⟩ => rfl

/-- The body's arithmetic at one row: entry (p, 0) of what it stores is the logistic function of the inner product
    of row p of its two loaded blocks. -/
theorem pay_apply (x0 x1 : Vec Ideal S4000x64 .f32) (p : Fin 4000) :
    k2_pay1 (F := Ideal) x0 x1 (ValueIdx.ix2 p (0 : Fin 1))
      = Ideal.logistic (∑ k : Fin 64, x0 (ValueIdx.ix2 p k) * x1 (ValueIdx.ix2 p k)) := by
  unfold k2_pay1
  rw [shapeCast_self, shapeCast_self]
  show Ideal.logistic (shapeCast S4000x1 (multiReduction (F := Ideal) .add [1] S4000 (mulf x0 x1) 0x00000000#32 reduces_S4000x64_S4000 (.inl rfl) rfl) shapeCasts_S4000_S4000x1 (ValueIdx.ix2 p (0 : Fin 1))) = _
  rw [col_apply, rowSum_apply]
  rfl

/-- The index maps over the 400 grid points: every window's block index is (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem hz : (![0, 0] : Fin 2 → Nat) = fun _ => 0 := funext fun a => by fin_cases a <;> rfl

/-- The whole output array as one function of the two input arrays: at (r, ·), the logistic function of the inner
    product of row r of the one with row r of the other. -/
abbrev G (c : Dev nD) : S1600000x1.Idx → Elt Ideal .f32 := fun i =>
  Ideal.logistic (∑ k : Fin 64, hrow V c (ValueIdx.ix2 (i 0) k) * hcol V c (ValueIdx.ix2 (i 0) k))

/-- What grid point t writes back is block t of that function: rows 4000 t to 4000 t + 3999, each computed from the same
    rows of the two inputs, which is where the input windows' blocks at t sit. -/
theorem flushed_eq (c : Dev nD) (t : Fin cfg2.N) :
    (dat2 (F := Ideal) V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S4000x64) hz]
  obtain ⟨e0, e1, e2, e3, e4, e5⟩ := idx_facts t
  have ht : t.val < 400 := t.isLt
  funext j
  obtain ⟨p, q, rfl⟩ : ∃ (p : Fin 4000) (q : Fin 1), j = ValueIdx.ix2 p q := ⟨j 0, j 1, ValueIdx.eq_ix2 j⟩
  obtain rfl : q = 0 := Subsingleton.elim _ _
  refine (pay_apply (iblk2 V c 0 t) (iblk2 V c 1 t) p).trans ?_
  have hp : p.val < 4000 := p.isLt
  -- the array row under row p of block t
  obtain ⟨r, hr⟩ : ∃ r : Fin 1600000, r.val = t.val * 4000 + p.val := ⟨⟨t.val * 4000 + p.val, by omega⟩, rfl⟩
  have hout : (((cfg2.win 2).blk t).view.emb (ValueIdx.ix2 p (0 : Fin 1))) 0 = r := by
    apply Fin.ext
    show win2_2.index t (0 : Fin 2) * 4000 + 1 * p.val = r.val
    omega
  have h0 : ∀ k : Fin 64, iblk2 V c 0 t (ValueIdx.ix2 p k) = hrow V c (ValueIdx.ix2 r k) := by
    intro k
    show V c main_v70 (((cfg2.win 0).blk t).view.emb (ValueIdx.ix2 p k)) = V c main_v70 (ValueIdx.ix2 r k)
    refine congrArg _ ?_
    funext a; apply Fin.ext
    match a with
    | ⟨0, _⟩ => show win2_0.index t (0 : Fin 2) * 4000 + 1 * p.val = r.val; omega
    | ⟨1, _⟩ => show win2_0.index t (1 : Fin 2) * 64 + 1 * k.val = k.val; omega
  have h1 : ∀ k : Fin 64, iblk2 V c 1 t (ValueIdx.ix2 p k) = hcol V c (ValueIdx.ix2 r k) := by
    intro k
    show V c main_v77 (((cfg2.win 1).blk t).view.emb (ValueIdx.ix2 p k)) = V c main_v77 (ValueIdx.ix2 r k)
    refine congrArg _ ?_
    funext a; apply Fin.ext
    match a with
    | ⟨0, _⟩ => show win2_1.index t (0 : Fin 2) * 4000 + 1 * p.val = r.val; omega
    | ⟨1, _⟩ => show win2_1.index t (1 : Fin 2) * 64 + 1 * k.val = k.val; omega
  rw [View.read_apply]
  show _ = Ideal.logistic (∑ k : Fin 64,
      hrow V c (ValueIdx.ix2 ((((cfg2.win 2).blk t).view.emb (ValueIdx.ix2 p (0 : Fin 1))) 0) k)
        * hcol V c (ValueIdx.ix2 ((((cfg2.win 2).blk t).view.emb (ValueIdx.ix2 p (0 : Fin 1))) 0) k))
  rw [hout]
  exact congrArg Ideal.logistic (Finset.sum_congr rfl fun k _ => by rw [h0, h1])

/-- An index of the output array lies in point t's block iff each coordinate lies in the block's range on its axis. -/
theorem mem_blk (t : Fin cfg2.N) (i : S1600000x1.Idx) :
    i ∈ ((cfg2.win 2).blk t).view.set ↔ ∀ a : Fin 2, win2_2.index t a * S4000x1.size a ≤ (i a).val
      ∧ (i a).val < win2_2.index t a * S4000x1.size a + S4000x1.size a := by
  show i ∈ ((View.whole main_v78).slice (win2_2.rect t)).set ↔ _
  rw [View.set_slice_whole, Rect.mem_set_unit]
  exact Iff.rfl

/-- The 400 blocks of 4000 rows tile the 1600000 rows: row r lies in block r / 4000. -/
theorem cover (i : S1600000x1.Idx) :
    ∃ t : Fin cfg2.N, (cfg2.win 2).flush t = true ∧ i ∈ ((cfg2.win 2).blk t).view.set := by
  have hi0 : (i 0).val < 1600000 := (i 0).isLt
  have hi1 : (i 1).val < 1 := (i 1).isLt
  obtain ⟨t, ht⟩ : ∃ t : Fin cfg2.N, t.val = (i 0).val / 4000 :=
    ⟨⟨(i 0).val / 4000, by show (i 0).val / 4000 < 400; omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 4000 ≤ (i 0).val ∧ (i 0).val < win2_2.index t (0 : Fin 2) * 4000 + 4000
    omega
  | ⟨1, _⟩ =>
    show win2_2.index t (1 : Fin 2) * 1 ≤ (i 1).val ∧ (i 1).val < win2_2.index t (1 : Fin 2) * 1 + 1
    omega

/-- So the array the region leaves is that function of the two inputs, everywhere. -/
theorem arr_eq (c : Dev nD) : (dat2 (F := Ideal) V c).arrAt 2 cfg2.N = G V c :=
  (dat2 (F := Ideal) V c).arrAt_eq_of_cover 2 (G V c) (fun t _ => flushed_eq V c t) cover

/-- After region 2, its output array holds at edge e the logistic function of row e's inner product. -/
theorem value (c : Dev nD) (e : Fin 1600000) :
    (dat2 (F := Ideal) V c).arrAt 2 cfg2.N (ValueIdx.ix2 e (0 : Fin 1))
      = Ideal.logistic (∑ k : Fin 64, hrow V c (ValueIdx.ix2 e k) * hcol V c (ValueIdx.ix2 e k)) := by
  exact congrFun (arr_eq V c) (ValueIdx.ix2 e (0 : Fin 1))

end Cert.KernelIdeal.Region2

end
-- ==== Proof.Result.lean ====
/-
  The kernel's result, as the reference's.

  Over the extended reals each of the two pallas_call products is the reference's dot_general of the same arrays (the
  blocks of rows tile the result, and a product into a zero accumulator is the plain sum over the contracted axis), so
  the host operations between the calls, which are the reference's own, carry the reference's values from one call to
  the next. The last call leaves at edge e the logistic function of the inner product of the two gathered rows; the
  reference computes 1 / (1 + exp (-s)) of the same inner product s, written as a sum from zero, and the logistic function
  over the extended reals IS that expression (with its values 0 and 1 at the infinities), so the final reshape of the
  kernel's column is the reference's vector, entry by entry. No step uses that the inputs are finite.
-/
import proofs.«129514_j75617194213390_1_alg».proof.Proof.Stages
import proofs.«129514_j75617194213390_1_alg».proof.Proof.Region0
import proofs.«129514_j75617194213390_1_alg».proof.Proof.Region1
import proofs.«129514_j75617194213390_1_alg».proof.Proof.Region2
import Idealize.ShloMosaic.Lib.IdealHost
import Idealize.ShloMosaic.Lib.Pipeline.Value
import Idealize.ShloMosaic.Lib.ValueIdx

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The first pallas_call leaves x @ W1. -/
theorem product1 (c : Dev nD) : W4 m ρ c (Proc.devRef .tc main_v29) = Cert.ReferenceIdeal.ReadP.val_main_v29 (F := Ideal) (m ((c : Thread nD τ).loc main_arg0)) (m ((c : Thread nD τ).loc main_arg2)) := by
  refine (W4_arr m ρ c 2).trans ?_
  rw [Region0.value (V3 m ρ) c]
  exact congrArg₂ (Cert.ReferenceIdeal.ReadP.val_main_v29 (F := Ideal)) (Stages.W3_arg0 m ρ c) (Stages.W3_arg2 m ρ c)

/-- The second pallas_call leaves relu(layer 1) @ W2. -/
theorem product2 (c : Dev nD) : W7 m ρ c (Proc.devRef .tc main_v47) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  rw [Region1.value (V6 m ρ) c]
  exact congrArg₂ (Host.dotGeneral (F := Ideal) (φ₁ := .f32) (φ₂ := .f32) Cert.ReferenceIdeal.dot_S100000x128_S128x64_S100000x64_1_0_0_1_n_n none)
    (Stages.W6_v46 m ρ c (product1 m ρ c)) (Stages.W6_arg4 m ρ c)

/-- The reference's two gathered feature arrays, source-node rows and target-node rows. -/
abbrev refRow (c : Dev nD) : FVec Ideal S1600000x64 .f32 := Cert.ReferenceIdeal.ReadP.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev refCol (c : Dev nD) : FVec Ideal S1600000x64 .f32 := Cert.ReferenceIdeal.ReadP.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The third pallas_call leaves, at edge e, the logistic function of the inner product of the two gathered rows. -/
theorem score_at (c : Dev nD) (e : Fin 1600000) :
    W9 m ρ c (Proc.devRef .tc main_v78) (ValueIdx.ix2 e (0 : Fin 1))
      = Ideal.logistic (∑ k : Fin 64, refRow m c (ValueIdx.ix2 e k) * refCol m c (ValueIdx.ix2 e k)) := by
  have h47 := product2 m ρ c
  refine (congrFun (W9_arr m ρ c 2) (ValueIdx.ix2 e (0 : Fin 1))).trans ?_
  rw [Region2.value (V8 m ρ) c e]
  have e70 : Region2.hrow (V8 m ρ) c = refRow m c := Stages.W8_v70 m ρ c h47
  have e77 : Region2.hcol (V8 m ρ) c = refCol m c := Stages.W8_v77 m ρ c h47
  rw [e70, e77]

/-- The reference's closing expression 1 / (1 + exp (-(0 + s))), in the host's operations, is the logistic function of s:
    that is the definition of the logistic function over the extended reals (with 0 + s = s). -/
theorem logistic_quotient (s s' one zero : EReal) (h1 : one = 1) (h0 : zero = 0) (h : s = s') :
    Ideal.logistic s = FloatOps.hostDivf (F := Ideal) (φ := .f32) one
      (FloatOps.addf (F := Ideal) (φ := .f32) one (FloatOps.hostUnary (F := Ideal) (φ := .f32) .exp
        (FloatOps.hostNegf (F := Ideal) (φ := .f32) (zero + s')))) := by
  subst h1 h0 h
  rw [zero_add]
  rfl

set_option maxHeartbeats 1000000 in
theorem result (c : Dev nD) : W10 m ρ c (Proc.devRef .tc main_v79) = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hs := score_at m ρ c
  show StableHlo.after hostOps3 (W9 m ρ c) (Proc.devRef .tc main_v79) = _
  generalize W9 m ρ c = W at hs ⊢
  after_results_simp
  refine funext fun (i : S1600000.Idx) => ?_
  have hi : (i 0).val < 1600000 := (i 0).isLt
  have hL : shapeCast main_v79.ty.shape (W (Proc.devRef .tc main_v78)) shapeCasts_S1600000x1_S1600000 i
      = W (Proc.devRef .tc main_v78) (ValueIdx.ix2 (⟨(i 0).val, hi⟩ : Fin 1600000) (0 : Fin 1)) :=
    shapeCast_apply (W (Proc.devRef .tc main_v78)) shapeCasts_S1600000x1_S1600000 i
      (ValueIdx.ix2 (⟨(i 0).val, hi⟩ : Fin 1600000) (0 : Fin 1))
      (by
        show (S1600000x1.rowMajor (ValueIdx.ix2 (⟨(i 0).val, hi⟩ : Fin 1600000) (0 : Fin 1))).val = (S1600000.rowMajor i).val
        rewrite [Shape.rowMajor_val_two, Shape.rowMajor_val_one]
        show (i 0).val * 1 + 0 = (i 0).val
        omega)
  rw [hL, hs]
  rw [Cert.ReferenceIdeal.ReadP.val_main_v85_apply, Cert.ReferenceIdeal.ReadP.val_main_v84_apply, Cert.ReferenceIdeal.ReadP.val_main_cst_19_apply, Cert.ReferenceIdeal.ReadP.val_main_v83_apply,
    Cert.ReferenceIdeal.ReadP.val_main_v82_apply, Cert.ReferenceIdeal.ReadP.val_main_cst_18_apply, Cert.ReferenceIdeal.ReadP.val_main_v81_apply, Cert.ReferenceIdeal.ReadP.val_main_v80_apply,
    Cert.ReferenceIdeal.ReadP.val_main_v79_apply, Cert.ReferenceIdeal.ReadP.val_main_cst_17_apply]
  refine logistic_quotient _ _ _ _ ((Ideal.ofBits_def _).trans Ideal.ofBits_one_f32)
    ((Ideal.ofBits_def _).trans Ideal.ofBits_zero_f32) (Finset.sum_congr rfl fun k _ => ?_)
  have hidx : ValueIdx.ix2 (⟨(i 0).val, hi⟩ : Fin 1600000) k = Cert.ReferenceIdeal.ReadP.idx_main_v79 i k :=
    funext fun a => Fin.ext (by
      match a with
      | ⟨0, _⟩ => rfl
      | ⟨1, _⟩ => rfl)
  rw [Cert.ReferenceIdeal.ReadP.val_main_v78_apply]
  exact congrArg₂ (· * ·) (congrArg (refRow m c) hidx) (congrArg (refCol m c) hidx)

end Cert.KernelIdeal.Result

end
-- ==== Proof.lean ====
/-
  A two-layer graph convolution and an edge score, with the two dense products and the edge score as Pallas calls.

  The kernel's @main and the reference's are the same host program except at three places: the two products
  x @ W1 and relu(layer 1) @ W2, which the kernel computes in blocks of 5000 rows with the operands rounded to bf16
  first, and the score sigmoid(sum_k h[row, k] * h[col, k]), which the kernel computes in blocks of 4000 edges with
  the logistic function where the reference writes 1 / (1 + exp (-s)). Over the extended reals a change of float format
  is the identity, a product into a zero accumulator is the sum over the contracted axis, and the logistic function is
  that quotient, so the three places agree and everything between them is shared. The inputs' finiteness is never used.

  The three frames: the kernel's two are the generated frame certificates; the reference has no kernel, and its frame is
  its run with the result forgotten. The ideal pass rewrote nothing, so the idealization claim is trivial.
-/
import proofs.«129514_j75617194213390_1_alg».proof.Defs
import proofs.«129514_j75617194213390_1_alg».proof.Proof.Gen.Kernel
import proofs.«129514_j75617194213390_1_alg».proof.Proof.Gen.Kernel.Frame
import proofs.«129514_j75617194213390_1_alg».proof.Proof.Gen.KernelIdeal
import proofs.«129514_j75617194213390_1_alg».proof.Proof.Gen.KernelIdeal.Frame
import proofs.«129514_j75617194213390_1_alg».proof.Proof.Gen.ReferenceIdeal
import proofs.«129514_j75617194213390_1_alg».proof.Proof.Gen.Pre_finite_inputs
import proofs.«129514_j75617194213390_1_alg».proof.Proof.RefReadP
import proofs.«129514_j75617194213390_1_alg».proof.Proof.KRun
import proofs.«129514_j75617194213390_1_alg».proof.Proof.Result
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the same result vector: the kernel's last buffer holds the reference's last
    stage of the kernel's own arguments, and the reference's run ends at that stage of arguments that agree. -/
theorem algebraic : Cert.algebraic_KernelIdeal_ReferenceIdeal := by
  intro m ρ m' ρ' _ hagree
  refine ⟨fun c => Cert.KernelIdeal.Gen.W10 m ρ c (Proc.devRef .tc Cert.KernelIdeal.main_v79),
    Cert.KernelIdeal.GenRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v85_eq, (hagree c).1, (hagree c).2.1, (hagree c).2.2.1, (hagree c).2.2.2.1,
    (hagree c).2.2.2.2.1, (hagree c).2.2.2.2.2]
  exact (Cert.KernelIdeal.Result.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
